-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S8192x128 : Shape := ⟨2, ![8192, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S16384x128 .f32) (main_arg1 : FVec F S8192x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S16384x128 : Shape := ⟨2, ![16384, 128]⟩
abbrev S8192x128 : Shape := ⟨2, ![8192, 128]⟩
abbrev S16384x8192 : Shape := ⟨2, ![16384, 8192]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x8192.size a
  hwx0_2 : ∀ i : grid0.Coords, EltTy.bits .f32 = 32 ∨ (Rect.block (s := S16384x8192) S1024x1024.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S8192x128 : Shape := ⟨2, ![8192, 128]⟩
abbrev S_ : Shape := ⟨0, ![]⟩
abbrev S16384 : Shape := ⟨1, ![16384]⟩
abbrev S8192 : Shape := ⟨1, ![8192]⟩
abbrev S16384x8192 : Shape := ⟨2, ![16384, 8192]⟩
abbrev S16384x1 : Shape := ⟨2, ![16384, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S16384x8192, .f32⟩
  | .hbm, ⟨9, _⟩ => ⟨S16384x1, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S16384x8192, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  reducesTo_S8192x128_S8192_d1 : S8192x128.ReducesTo [1] S8192
  bcast_S16384_S16384x1_0 : S16384.BroadcastsInDim S16384x1 (![0] : Fin 1 → Fin S16384x1.rank)
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  dot_S16384x128_S8192x128_S16384x8192_1_1_0_0_n_n_wf : DotDims.WF S16384x128 S8192x128 S16384x8192 [1] [1] [0] [0] [] []

variable [Facts₀]

def dot_S16384x128_S8192x128_S16384x8192_1_1_0_0_n_n : DotDims S16384x128 S8192x128 S16384x8192 where
  lhsContracting := [1]
  rhsContracting := [1]
  lhsNonContracting := [0]
  rhsNonContracting := [0]
  lhsBatch := []
  rhsBatch := []
  wf := dot_S16384x128_S8192x128_S16384x8192_1_1_0_0_n_n_wf

class Facts : Prop extends Facts₀ where

variable [Facts]
-- ==== Proof.SqDistSpec.lean ====
/-
  The pairwise squared Euclidean distance, index by index, over the extended reals.

  For a matrix `x` of 16384 rows and a matrix `y` of 8192 rows, each row a vector of 128 entries, the entry
  `(p, q)` of the result is

      (∑ₖ x[p,k]·x[p,k]  +  ∑ₖ y[q,k]·y[q,k])  -  two · ∑ₖ x[p,k]·y[q,k],

  the expansion of ‖x[p] − y[q]‖² into the two squared norms and the inner product. The factor `two` is kept as
  the binary word both programs print for it: the same word stands on both sides, so it is never evaluated.
  Nothing here asks that the entries be finite: both programs compute this very expression, with the additions,
  the subtraction and the product grouped as written, so no law of the reals that fails at an infinity is used.
-/
import Idealize.ShloMosaic.PureOps.Ideal
import Idealize.ShloMosaic.Lib.ValueIdx

noncomputable section

namespace Cert.SqDist

open Idealize.ShloMosaic Idealize.ShloMosaic.ValueIdx

/-- The factor of the inner product: the f32 word of `2.0`, as both programs print it. -/
abbrev two : EReal := Ideal.ofBits .f32 0x40000000#32

/-- The squared norm of row `p` of a matrix whose rows have 128 entries. -/
def rowSq {n : Nat} (x : (⟨2, ![n, 128]⟩ : Shape).Idx → EReal) (p : Fin n) : EReal :=
  ∑ k : Fin 128, x (ix2 p k) * x (ix2 p k)

/-- The inner product of row `p` of `x` with row `q` of `y`. -/
def rowDot {n n' : Nat} (x : (⟨2, ![n, 128]⟩ : Shape).Idx → EReal) (y : (⟨2, ![n', 128]⟩ : Shape).Idx → EReal)
    (p : Fin n) (q : Fin n') : EReal :=
  ∑ k : Fin 128, x (ix2 p k) * y (ix2 q k)

/-- The squared distance between row `p` of `x` and row `q` of `y`, expanded. -/
def sqDistAt {n n' : Nat} (x : (⟨2, ![n, 128]⟩ : Shape).Idx → EReal) (y : (⟨2, ![n', 128]⟩ : Shape).Idx → EReal)
    (p : Fin n) (q : Fin n') : EReal :=
  (rowSq x p + rowSq y q) - two * rowDot x y p q

/-- The squared distance of two rows depends only on the two rows' entries: if row `p` of `x` is row `P` of `X` and row
    `q` of `y` is row `Q` of `Y`, entry by entry, the two squared distances are the same number. -/
theorem sqDistAt_congr {n n' N N' : Nat} (x : (⟨2, ![n, 128]⟩ : Shape).Idx → EReal) (y : (⟨2, ![n', 128]⟩ : Shape).Idx → EReal)
    (X : (⟨2, ![N, 128]⟩ : Shape).Idx → EReal) (Y : (⟨2, ![N', 128]⟩ : Shape).Idx → EReal)
    (p : Fin n) (q : Fin n') (P : Fin N) (Q : Fin N')
    (hx : ∀ k : Fin 128, x (ix2 p k) = X (ix2 P k)) (hy : ∀ k : Fin 128, y (ix2 q k) = Y (ix2 Q k)) :
    sqDistAt x y p q = sqDistAt X Y P Q := by
  unfold sqDistAt rowSq rowDot
  simp only [hx, hy]

/-- The whole table of squared distances between the 16384 rows of `x` and the 8192 rows of `y`. -/
def sqDist (x : (⟨2, ![16384, 128]⟩ : Shape).Idx → EReal) (y : (⟨2, ![8192, 128]⟩ : Shape).Idx → EReal) :
    (⟨2, ![16384, 8192]⟩ : Shape).Idx → EReal :=
  fun i => sqDistAt x y (i 0) (i 1)

theorem sqDist_ix2 (x : (⟨2, ![16384, 128]⟩ : Shape).Idx → EReal) (y : (⟨2, ![8192, 128]⟩ : Shape).Idx → EReal)
    (p : Fin 16384) (q : Fin 8192) : sqDist x y (ix2 p q) = sqDistAt x y p q := rfl

end Cert.SqDist

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.KernelBody.lean ====
/-
  What the kernel's body stores, read at an index, at the ideal values.

  The body loads a block `v0` of 1024 rows of the first matrix and a block `v1` of 1024 rows of the second, each row
  128 entries long, and stores one 1024 × 1024 tile. Entry `(p, q)` of the tile is

      (∑ₖ v0[p,k]·v0[p,k]  +  ∑ₖ v1[q,k]·v1[q,k])  -  two · ∑ₖ v0[p,k]·v1[q,k] :

  * the squared norms are lane sums of the elementwise squares; the first is kept as a column and broadcast over the
    tile's columns, the second is kept as a column, transposed into a row and broadcast over the tile's rows;
  * the inner products are one matrix product contracting the second axis of BOTH blocks (so row `p` of `v0` meets
    row `q` of `v1`), accumulated into a zero tile; the narrowing of the operands to a shorter float format before
    the product is the identity at the ideal values;
  * the three are combined as written: the sum of the two norms, minus the doubled inner product.

  So the tile is the squared-distance table of the two blocks (`Cert.SqDist.sqDistAt`).
-/
import proofs.«107948_j24704651886789_1_alg».proof.Proof.Gen.KernelIdeal.Skeleton
import proofs.«107948_j24704651886789_1_alg».proof.Proof.SqDistSpec
import proofs.«107948_j24704651886789_1_alg».proof.Proof.LibColumnLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open Cert.SqDist Cert.ColumnLayout

/-! ## The matrix product: which entries of the operands meet -/

/-- The left operand's row is the tile's row. -/
theorem lhs_row (i : S1024x1024.Idx) (r : dot_S1024x128_S1024x128_S1024x1024_1_1_0_0_n_n.contr.Idx) :
    (dot_S1024x128_S1024x128_S1024x1024_1_1_0_0_n_n.lhsIdx i r 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- The left operand's column is the contraction index. -/
theorem lhs_col (i : S1024x1024.Idx) (r : dot_S1024x128_S1024x128_S1024x1024_1_1_0_0_n_n.contr.Idx) :
    (dot_S1024x128_S1024x128_S1024x1024_1_1_0_0_n_n.lhsIdx i r 1).val = (r ⟨0, by decide⟩).val :=
  dot_S1024x128_S1024x128_S1024x1024_1_1_0_0_n_n.lhsIdx_val_of_single rfl i r
/-- The right operand's row is the tile's COLUMN: the product contracts the second axis of both operands. -/
theorem rhs_row (i : S1024x1024.Idx) (r : dot_S1024x128_S1024x128_S1024x1024_1_1_0_0_n_n.contr.Idx) :
    (dot_S1024x128_S1024x128_S1024x1024_1_1_0_0_n_n.rhsIdx i r 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
/-- The right operand's column is the contraction index. -/
theorem rhs_col (i : S1024x1024.Idx) (r : dot_S1024x128_S1024x128_S1024x1024_1_1_0_0_n_n.contr.Idx) :
    (dot_S1024x128_S1024x128_S1024x1024_1_1_0_0_n_n.rhsIdx i r 1).val = (r ⟨0, by decide⟩).val :=
  dot_S1024x128_S1024x128_S1024x1024_1_1_0_0_n_n.rhsIdx_val_of_single rfl i r

/-- The product of the two narrowed blocks into a zero tile, at `(p, q)`: the inner product of row `p` of the first
    block with row `q` of the second. -/
theorem cross_apply (v0 v1 : FVec Ideal S1024x128 .f32) (hb : FTy.bits .bf16 < FTy.bits .f32) (p q : Fin 1024) :
    matmul dot_S1024x128_S1024x128_S1024x1024_1_1_0_0_n_n none (truncf .bf16 v0 hb) (truncf .bf16 v1 hb) (constant S1024x1024 .f32 0x00000000#32) (ix2 p q)
      = ∑ k : Fin 128, v0 (ix2 p k) * v1 (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun a => Fin.ext (by
    match a with
    | ⟨0, _⟩ => exact lhs_row _ _
    | ⟨1, _⟩ => exact (lhs_col _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun a => Fin.ext (by
    match a with
    | ⟨0, _⟩ => exact rhs_row _ _
    | ⟨1, _⟩ => exact (rhs_col _ _).trans hk)
  rw [el, er]
  rfl

/-! ## The whole payload -/

/-- The stored tile at `(p, q)` is the squared distance between row `p` of the first block and row `q` of the
    second. -/
theorem pay_apply (v0 v1 : Vec Ideal S1024x128 .f32) (p q : Fin 1024) :
    k0_pay1 (F := Ideal) v0 v1 (ix2 p q) = sqDistAt v0 v1 p q := by
  unfold k0_pay1 sqDistAt rowSq rowDot
  dsimp only
  rw [subf_apply, addf_apply, mulf_apply, broadcast_apply, column_over_columns_apply, column_as_row_over_rows_apply]
  refine congrArg₂ (· - ·) (congrArg₂ (· + ·) ?_ ?_) (congrArg₂ (· * ·) rfl ?_)
  · exact multiReduction_add_rows_apply (mulf v0 v0) _ _ _ _ p
  · exact multiReduction_add_rows_apply (mulf v1 v1) _ _ _ _ q
  · exact cross_apply v0 v1 _ p q

end Cert.KernelIdeal.Body

end
-- ==== Proof.TilesToTable.lean ====
/-
  From the tiles to the whole table.

  The grid has 16 × 8 points. Point `(I, J)` is handed rows `1024·I … 1024·I + 1023` of the first matrix (its block
  does not depend on `J`), rows `1024·J … 1024·J + 1023` of the second (its block does not depend on `I`), and writes
  back the 1024 × 1024 tile of the result whose corner is `(1024·I, 1024·J)`.

  * `flushed_eq`: what point `t` writes back is the tile of the squared-distance table of the WHOLE matrices at that
    corner. Entry `(p, q)` of the tile is the squared distance between row `p` of the first block and row `q` of the
    second (the body, read at an index); row `p` of the first block is row `1024·I + p` of the first matrix and row `q`
    of the second block is row `1024·J + q` of the second, and the squared distance depends on nothing else.
  * `cover`: every index `(r, s)` of the result lies in the tile of the point `(r / 1024, s / 1024)`, and every point
    writes its tile back.
  * So after the run the result array holds the squared-distance table of the two argument matrices (`final`, `run`).
-/
import proofs.«107948_j24704651886789_1_alg».proof.Proof.Gen.KernelIdeal.Value
import proofs.«107948_j24704651886789_1_alg».proof.Proof.KernelBody
import proofs.«107948_j24704651886789_1_alg».proof.Proof.SqDistSpec

noncomputable section

namespace Cert.KernelIdeal.Table

open Cert.KernelIdeal Cert.KernelIdeal.Gen Cert.KernelIdeal.Body Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three index maps, decided over the 128 grid points: the first input's block row is the output's block row,
    the second input's block row is the output's block COLUMN, neither input has a second block along its rows'
    128 entries, and the output's block indices stay inside 16 × 8. -/
theorem index_maps : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 7 :=
  (by decide +kernel : ∀ t : Fin grid0.N, _)

/-- Every one of the 16 × 8 tiles is some point's. -/
theorem every_tile : ∀ (I : Fin 16) (J : Fin 8), ∃ t : Fin cfg0.N, win0_2.index t = ![I.val, J.val] :=
  (by decide +kernel : ∀ (I : Fin 16) (J : Fin 8), ∃ t : Fin grid0.N, win0_2.index t = ![I.val, J.val])

/-- WHAT POINT `t` WRITES BACK is its tile of the squared-distance table of the two matrices as the region finds
    them. -/
theorem flushed_eq (c : Dev nD) (t : Fin cfg0.N) :
    (dats m 0 c).flushed 2 t
      = ((cfg0.win 2).blk t).view.read (Elt Ideal) (sqDist (V m c main_arg0) (V m c main_arg1)) := by
  rw [Value.flushed2]
  unfold out0_2
  rw [View.canon_unit_zero origin]
  simp only [View.ld_unit_zero (S := S1024x128) origin]
  obtain ⟨e00, e01, e10, e11, b0, b1⟩ := index_maps t
  refine funext fun (j : S1024x1024.Idx) => ?_
  obtain ⟨p, q, rfl⟩ : ∃ (p : Fin 1024) (q : Fin 1024), j = ix2 p q := ⟨j 0, j 1, eq_ix2 j⟩
  show k0_pay1 (iblk m c 0 t) (iblk m c 1 t) (ix2 p q)
    = sqDistAt (V m c main_arg0) (V m c main_arg1) ((((cfg0.win 2).blk t).view.emb (ix2 p q)) 0) ((((cfg0.win 2).blk t).view.emb (ix2 p q)) 1)
  refine (pay_apply (iblk m c 0 t) (iblk m c 1 t) p q).trans ?_
  refine sqDistAt_congr _ _ _ _ p q _ _ (fun k => ?_) (fun k => ?_)
  · -- row p of the first block is row 1024·I + p of the first matrix
    show V m c main_arg0 (((cfg0.win 0).blk t).view.emb (ix2 p k)) = V m c main_arg0 _
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 128 + 1 * k.val = k.val
      omega
  · -- row q of the second block is row 1024·J + q of the second matrix
    show V m c main_arg1 (((cfg0.win 1).blk t).view.emb (ix2 q k)) = V m c main_arg1 _
    refine congrArg (V m c main_arg1) (funext fun a => Fin.ext ?_)
    match a with
    | ⟨0, _⟩ =>
      show win0_1.index t (0 : Fin 2) * 1024 + 1 * q.val = win0_2.index t (1 : Fin 2) * 1024 + 1 * q.val
      omega
    | ⟨1, _⟩ =>
      show win0_1.index t (1 : Fin 2) * 128 + 1 * k.val = k.val
      omega

/-- An index of the result is in point `t`'s tile iff each coordinate is in the tile's range on its axis. -/
theorem mem_tile (t : Fin cfg0.N) (i : S16384x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE TILES COVER THE TABLE: index `(r, s)` is in the tile of the point at block `(r / 1024, s / 1024)`, which
    writes it back. -/
theorem cover (i : S16384x8192.Idx) :
    ∃ t : Fin cfg0.N, (cfg0.win 2).flush t = true ∧ i ∈ ((cfg0.win 2).blk t).view.set := by
  have hi0 : (i 0).val < 16384 := (i 0).isLt
  have hi1 : (i 1).val < 8192 := (i 1).isLt
  obtain ⟨t, ht⟩ := every_tile ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE RESULT ARRAY after the run is the squared-distance table of the two argument matrices. -/
theorem final (c : Dev nD) :
    (dats m 0 c).arrAt 2 cfg0.N
      = sqDist (m ((c : Thread nD τ).loc main_arg0)) (m ((c : Thread nD τ).loc main_arg1)) :=
  (dats m 0 c).arrAt_eq_of_cover 2 _ (fun t _ => flushed_eq m c t) cover

/-- The kernel's run at the ideal values: it ends with the result array at the squared-distance table of the
    arguments, the arguments unchanged. -/
theorem run : θ_run defs (onTc (τ := τ) (main (F := Ideal))) ⟨m, fun _ => 0, ρ⟩ fun r => ∀ c : Dev nD,
      r.2.mem ((c : Thread nD τ).loc main_v0)
        = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Table

end
-- ==== Proof.RefIsSqDist.lean ====
/-
  The reference's result is the squared-distance table.

  The reference squares both matrices entry by entry and sums each row (a host sum with initial value zero, so each
  row sum is `0 + ∑ₖ`), takes the product of the first matrix with the transpose of the second as one contraction
  over the rows' 128 entries, lays the first matrix's row sums along the columns and the second's along the rows by
  two broadcasts each, adds them, and subtracts the product doubled. Read at an index `(i₀, i₁)`, one operation at a
  time:

      (0 + ∑ₖ x[i₀,k]·x[i₀,k]  +  (0 + ∑ₖ y[i₁,k]·y[i₁,k]))  -  two · ∑ₖ x[i₀,k]·y[i₁,k].

  The only arithmetic used is `0 + a = a`, which holds at the infinities too.
-/
import proofs.«107948_j24704651886789_1_alg».proof.Proof.Gen.ReferenceIdeal.Read
import proofs.«107948_j24704651886789_1_alg».proof.Proof.SqDistSpec

noncomputable section

namespace Cert.ReferenceIdeal.RefValue

open Cert.ReferenceIdeal Cert.ReferenceIdeal.Gen Cert.ReferenceIdeal.Read
open Idealize.ShloMosaic Idealize.ShloMosaic.ValueIdx Cert.SqDist

/-- The reference's last stage, at the ideal values, is the squared-distance table of its two arguments. -/
theorem result_eq (x0 : (⟨S16384x128, .f32⟩ : BufTy).Contents (Elt Ideal)) (x1 : (⟨S8192x128, .f32⟩ : BufTy).Contents (Elt Ideal)) :
    val_main_v12 (F := Ideal) x0 x1 = sqDist x0 x1 := by
  funext i
  -- the row of the first matrix that the two broadcasts and the row sum reach from (i₀, i₁): row i₀
  have eL : ∀ k : Fin 128, idx_main_v1 (idx_main_v5 (idx_main_v7 i)) k = ix2 (i 0) k := fun k =>
    funext fun a => Fin.ext (by match a with | ⟨0, _⟩ => rfl | ⟨1, _⟩ => rfl)
  -- the row of the second matrix they reach: row i₁
  have eR : ∀ k : Fin 128, idx_main_v3 (idx_main_v6 (idx_main_v8 i)) k = ix2 (i 1) k := fun k =>
    funext fun a => Fin.ext (by match a with | ⟨0, _⟩ => rfl | ⟨1, _⟩ => rfl)
  -- the contraction pairs row i₀ of the first matrix with row i₁ of the second
  have eDl : ∀ k : Fin 128, lidx_main_v4 i k = ix2 (i 0) k := fun k =>
    funext fun a => Fin.ext (by match a with | ⟨0, _⟩ => rfl | ⟨1, _⟩ => rfl)
  have eDr : ∀ k : Fin 128, ridx_main_v4 i k = ix2 (i 1) k := fun k =>
    funext fun a => Fin.ext (by match a with | ⟨0, _⟩ => rfl | ⟨1, _⟩ => rfl)
  rw [val_main_v12_apply, val_main_v9_apply, val_main_v11_apply, val_main_v7_apply, val_main_v5_apply, val_main_v1_apply,
    val_main_v8_apply, val_main_v6_apply, val_main_v3_apply, val_main_v10_apply, val_main_v4_apply]
  simp only [val_main_v0_apply, val_main_v2_apply, val_main_cst_apply, val_main_cst_0_apply, val_main_cst_1_apply, eL, eR, eDl, eDr,
    Ideal.mulf_def, Ideal.addf_def, Ideal.subf_def, Ideal.ofBits_def, Ideal.ofBits_zero_f32, zero_add,
    sqDist, sqDistAt, rowSq, rowDot]
  rfl

end Cert.ReferenceIdeal.RefValue

end
-- ==== Proof.lean ====
/-
  Pairwise squared Euclidean distances: a tiled kernel against the plain formula.

  Both programs take a matrix `x` of 16384 rows and a matrix `y` of 8192 rows, every row 128 entries long, and return
  the 16384 × 8192 table whose entry `(i, j)` is

      (∑ₖ x[i,k]·x[i,k]  +  ∑ₖ y[j,k]·y[j,k])  -  2 · ∑ₖ x[i,k]·y[j,k]          (`Cert.SqDist.sqDist`),

  the expansion of ‖x[i] − y[j]‖² into two squared norms and an inner product.

  * The kernel cuts the table into 16 × 8 tiles of 1024 × 1024. For a tile it loads the 1024 rows of `x` and the 1024
    rows of `y` that the tile's entries speak of, takes the squared norms as lane sums, the inner products as one matrix
    product of the two blocks (the narrowing of its operands to a shorter float format is the identity at the ideal
    values), and stores norms plus norms minus twice the products. Read at an index that is the formula above for the
    two blocks (Proof/KernelBody.lean); a block's rows are rows of the whole matrices, the tiles cover the table, so
    the result array ends holding the formula for the whole matrices (Proof/TilesToTable.lean).
  * The reference computes the row sums of the squares, one contraction of `x` with `y` over the rows' entries, two
    broadcasts, a sum and a difference; read at an index, one operation at a time, it is the same formula, up to the
    zero its host sums start from (Proof/RefIsSqDist.lean).

  The two sides group the additions, the subtraction and the doubling alike, so the only law used is `0 + a = a`:
  the finiteness of the inputs is never opened. The three frames are the generated ones (the reference's is its
  generated run with the result dropped), and the idealization rewrote nothing, so `preserves` is `True`.
-/
import proofs.«107948_j24704651886789_1_alg».proof.Defs
import proofs.«107948_j24704651886789_1_alg».proof.Proof.Gen.Kernel
import proofs.«107948_j24704651886789_1_alg».proof.Proof.Gen.Kernel.Skeleton
import proofs.«107948_j24704651886789_1_alg».proof.Proof.Gen.Kernel.Launch
import proofs.«107948_j24704651886789_1_alg».proof.Proof.Gen.Kernel.Points
import proofs.«107948_j24704651886789_1_alg».proof.Proof.Gen.Kernel.Frame
import proofs.«107948_j24704651886789_1_alg».proof.Proof.Gen.KernelIdeal
import proofs.«107948_j24704651886789_1_alg».proof.Proof.Gen.KernelIdeal.Skeleton
import proofs.«107948_j24704651886789_1_alg».proof.Proof.Gen.KernelIdeal.Launch
import proofs.«107948_j24704651886789_1_alg».proof.Proof.Gen.KernelIdeal.Points
import proofs.«107948_j24704651886789_1_alg».proof.Proof.Gen.KernelIdeal.Frame
import proofs.«107948_j24704651886789_1_alg».proof.Proof.Gen.ReferenceIdeal
import proofs.«107948_j24704651886789_1_alg».proof.Proof.Gen.Pre_finite_inputs
import proofs.«107948_j24704651886789_1_alg».proof.Proof.Gen.KernelIdeal.Value
import proofs.«107948_j24704651886789_1_alg».proof.Proof.Gen.ReferenceIdeal.Run
import proofs.«107948_j24704651886789_1_alg».proof.Proof.Gen.ReferenceIdeal.Read
import proofs.«107948_j24704651886789_1_alg».proof.Proof.TilesToTable
import proofs.«107948_j24704651886789_1_alg».proof.Proof.RefIsSqDist
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the two matrices, the kernel ends with its result at the squared-distance table of
    its arguments and the reference with its result at the squared-distance table of its own; the arguments agree, so
    the tables are one. -/
theorem algebraic : Cert.algebraic_KernelIdeal_ReferenceIdeal := by
  intro m ρ m' ρ' _ hagree
  refine ⟨_, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
